-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1703936 : Shape := ⟨1, ![1703936]⟩
abbrev S1703936x1 : Shape := ⟨2, ![1703936, 1]⟩
abbrev S1703936x128 : Shape := ⟨2, ![1703936, 128]⟩
abbrev S8192x128 : Shape := ⟨2, ![8192, 128]⟩
abbrev S8192x1 : Shape := ⟨2, ![8192, 1]⟩
abbrev S1x128 : Shape := ⟨2, ![1, 128]⟩

abbrev nBuf : Space → Nat
  | .hbm => 76
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .bf16⟩
  | .hbm, ⟨48, _⟩ => ⟨S128x128, .bf16⟩
  | .hbm, ⟨49, _⟩ => ⟨S100000x128, .f32⟩
  | .hbm, ⟨50, _⟩ => ⟨S_, .i32⟩
  | .hbm, ⟨51, _⟩ => ⟨S_, .i32⟩
  | .hbm, ⟨52, _⟩ => ⟨S1703936, .i32⟩
  | .hbm, ⟨53, _⟩ => ⟨S_, .i32⟩
  | .hbm, ⟨54, _⟩ => ⟨S_, .i32⟩
  | .hbm, ⟨55, _⟩ => ⟨S1703936, .i32⟩
  | .hbm, ⟨56, _⟩ => ⟨S_, .f32⟩
  | .hbm, ⟨57, _⟩ => ⟨S_, .f32⟩
  | .hbm, ⟨58, _⟩ => ⟨S1703936, .f32⟩
  | .hbm, ⟨59, _⟩ => ⟨S_, .i32⟩
  | .hbm, ⟨60, _⟩ => ⟨S1703936, .i32⟩
  | .hbm, ⟨61, _⟩ => ⟨S1703936, .i1⟩
  | .hbm, ⟨62, _⟩ => ⟨S_, .i32⟩
  | .hbm, ⟨63, _⟩ => ⟨S1703936, .i32⟩
  | .hbm, ⟨64, _⟩ => ⟨S1703936, .i32⟩
  | .hbm, ⟨65, _⟩ => ⟨S1703936, .i32⟩
  | .hbm, ⟨66, _⟩ => ⟨S1703936x1, .i32⟩
  | .hbm, ⟨67, _⟩ => ⟨S1703936x128, .f32⟩
  | .hbm, ⟨68, _⟩ => ⟨S1703936x1, .f32⟩
  | .hbm, ⟨69, _⟩ => ⟨S1703936x128, .f32⟩
  | .hbm, ⟨70, _⟩ => ⟨S_, .f32⟩
  | .hbm, ⟨71, _⟩ => ⟨S100000x128, .f32⟩
  | .hbm, ⟨72, _⟩ => ⟨S1703936x1, .i32⟩
  | .hbm, ⟨73, _⟩ => ⟨S100000x128, .f32⟩
  | .hbm, ⟨74, _⟩ => ⟨S1x128, .f32⟩
  | .hbm, ⟨75, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S128x128, .bf16⟩
  | .local _ .vmem, ⟨3, _⟩ => ⟨S4000x128, .f32⟩
  | .local _ .vmem, ⟨4, _⟩ => ⟨S4000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x128, .f32⟩
  | .local _ .vmem, ⟨10, _⟩ => ⟨S8192x128, .f32⟩
  | .local _ .vmem, ⟨11, _⟩ => ⟨S4000x128, .f32⟩
  | .local _ .vmem, ⟨12, _⟩ => ⟨S4000x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_call1_v0 : Ref sig .tc := ⟨.hbm, 51, rfl⟩
abbrev main_v35 : Ref sig .tc := ⟨.hbm, 52, rfl⟩
abbrev main_c_7 : Ref sig .tc := ⟨.hbm, 53, rfl⟩
abbrev main_call2_v0 : Ref sig .tc := ⟨.hbm, 54, rfl⟩
abbrev main_v36 : Ref sig .tc := ⟨.hbm, 55, rfl⟩
abbrev main_cst_8 : Ref sig .tc := ⟨.hbm, 56, rfl⟩
abbrev main_call3_v0 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  pads_S1700000_S1703936_039360 : S1700000.Pads (![0] : Fin 1 → Nat) ![3936] ![0] S1703936
  h_S_ : 0 < S_.numel
  bcast_S_S1703936 : S_.BroadcastsInDim S1703936 (![] : Fin 0 → Fin S1703936.rank)
  bcast_S1703936_S1703936x1_0 : S1703936.BroadcastsInDim S1703936x1 (![0] : Fin 1 → Fin S1703936x1.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1703936x1_S1703936x128_1_0_n_n_0_1_1128_wf : GatherDims.WF S100000x128 S1703936x1 S1703936x128 [1] [0] [] [0] [] 1 ![1, 128]
  scatter_S100000x128_S1703936x1_S1703936x128_1_0_0_1_wf : ScatterDims.WF S100000x128 S1703936x1 S1703936x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1703936x128.size a
  hwx1_2 : ∀ i : grid1.Coords, EltTy.bits .f32 = 32 ∨ (Rect.block (s := S1703936x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf

abbrev win0_0 : Pipeline.Window sig grid0 :=
  Pipeline.Window.ofSpec (Memref.whole main_v32) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The kernel program's host glue between and after its three pipelined regions, as functions of the arrays the
  reference names: zero-padding of the 1,700,000 edge entries to 1,703,936 (208 blocks of 8,192), the wrap of negative
  row indices, the row gather out of the transformed features, the per-edge scale as a column, the scatter-add over the
  padded target indices, and the bias as a row. `kout` is the whole result: relu of the scatter-add plus bias.
-/
import proofs.«171862_j82970178224660_1_alg».proof.Proof.Gen.KernelIdeal
import proofs.«171862_j82970178224660_1_alg».proof.Proof.Gen.ReferenceIdeal.Read
import Idealize.ShloMosaic.Lib.ValueIdx

noncomputable section

namespace Cert.KernelIdeal.KV

open Cert.KernelIdeal Cert.KernelIdeal.Gen Idealize.ShloMosaic Idealize.ShloMosaic.ValueIdx

/-- An edge-indexed integer vector followed by 3,936 zeros. -/
def padI (v : IVec S1700000 32) : IVec S1703936 32 :=
  pad S1703936 ![0] ![3936] ![0] v (constantI S_ 32 0#32) pads_S1700000_S1703936_039360 h_S_

/-- An edge-indexed real vector followed by 3,936 zeros. -/
def padF (v : FVec Ideal S1700000 .f32) : FVec Ideal S1703936 .f32 :=
  pad S1703936 ![0] ![3936] ![0] v (constant (F := Ideal) S_ .f32 0x00000000#32) pads_S1700000_S1703936_039360 h_S_

/-- A negative index is moved up by the number of nodes (numpy's wrap-around), any other is kept. -/
def wrapI (p : IVec S1703936 32) : IVec S1703936 32 :=
  select (cmpi .slt p (broadcastInDim S1703936 ![] bcast_S_S1703936 (constantI S_ 32 0#32)))
    (addi p (broadcastInDim S1703936 ![] bcast_S_S1703936 (constantI S_ 32 100000#32))) p

/-- A vector as a one-column matrix. -/
def colI (p : IVec S1703936 32) : IVec S1703936x1 32 := broadcastInDim S1703936x1 ![0] bcast_S1703936_S1703936x1_0 p

/-- A vector as a one-column matrix. -/
def colF (p : FVec Ideal S1703936 .f32) : FVec Ideal S1703936x1 .f32 := broadcastInDim S1703936x1 ![0] bcast_S1703936_S1703936x1_0 p

/-- Row `e` of the result is the row of `xw` that the padded, wrapped source index of edge `e` names. -/
def gath (xw : FVec Ideal S100000x128 .f32) (row : IVec S1700000 32) : FVec Ideal S1703936x128 .f32 :=
  Host.gather gather_S100000x128_S1703936x1_S1703936x128_1_0_n_n_0_1_1128 xw (colI (wrapI (padI row)))

/-- Each row of a matrix times that row's entry of a one-column matrix. -/
def scaleRows (g : FVec Ideal S1703936x128 .f32) (s : FVec Ideal S1703936x1 .f32) : FVec Ideal S1703936x128 .f32 :=
  fun j => g j * s (ix2 (j 0) (0 : Fin 1))

/-- The messages: each gathered row times its edge's normalisation weight (zero on the padding). -/
def msgs (xw : FVec Ideal S100000x128 .f32) (row : IVec S1700000 32) (norm : FVec Ideal S1700000 .f32) :
    FVec Ideal S1703936x128 .f32 :=
  scaleRows (gath xw row) (colF (padF norm))

/-- The messages added up per padded target index, from zero. -/
def scat (col : IVec S1700000 32) (u : FVec Ideal S1703936x128 .f32) : FVec Ideal S100000x128 .f32 :=
  Host.scatterAdd scatter_S100000x128_S1703936x1_S1703936x128_1_0_0_1
    (broadcastInDim S100000x128 ![] bcast_S_S100000x128 (constant (F := Ideal) S_ .f32 0x00000000#32)) (colI (padI col)) u

/-- The bias as a one-row matrix. -/
def biasRow (b : FVec Ideal S128 .f32) : FVec Ideal S1x128 .f32 := shapeCast S1x128 b shapeCasts_S128_S1x128

/-- A one-row matrix added to every row of a matrix, then the maximum with zero. -/
def biasRelu (o : FVec Ideal S100000x128 .f32) (b : FVec Ideal S1x128 .f32) : FVec Ideal S100000x128 .f32 :=
  fun i => max (o i + b (ix2 (0 : Fin 1) (i 1))) (FloatOps.ofBits (F := Ideal) .f32 0x00000000#32)

/-- The kernel program's result as one function of the five arguments. -/
def kout (x0 : FVec Ideal S100000x128 .f32) (x1 : IVec S2x1600000 32) (x2 : FVec Ideal S1600000 .f32)
    (x3 : FVec Ideal S128x128 .f32) (x4 : FVec Ideal S128 .f32) : FVec Ideal S100000x128 .f32 :=
  biasRelu
    (scat (Cert.ReferenceIdeal.Read.val_main_v6 (F := Ideal) x1)
      (msgs (Cert.ReferenceIdeal.Read.val_main_v32 (F := Ideal) x0 x3) (Cert.ReferenceIdeal.Read.val_main_v3 (F := Ideal) x1)
        (Cert.ReferenceIdeal.Read.val_main_v31 (F := Ideal) x1 x2)))
    (biasRow x4)

end Cert.KernelIdeal.KV

end
-- ==== Proof.Region0.lean ====
/-
  The first pipelined region: 25 blocks of 4,000 rows of x, each multiplied by the whole 128 x 128 weight matrix into a
  zero accumulator. Over the extended reals the blocks tile the product x W: entry (i, j) is the sum over k of
  x(i, k) W(k, j), which is what the reference's one matrix product is.
-/
import proofs.«171862_j82970178224660_1_alg».proof.Proof.Gen.KernelIdeal.Frame
import proofs.«171862_j82970178224660_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace MatmulBlocks

/-! ## One block's product at an entry -/

/-- The body reads and writes each staging buffer whole: from its origin. -/
theorem origin2 : (![0, 0] : Fin 2 → Nat) = fun _ => 0 :=
  funext fun a => by match a with | ⟨0, _⟩ => rfl | ⟨1, _⟩ => rfl

/-- The left factor is read at the result's row, -/
theorem lhs_block_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- and at the summation index as its column; -/
theorem lhs_block_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right factor at the summation index as its row, -/
theorem rhs_block_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- and at the result's column. -/
theorem rhs_block_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of a block's product into a zero accumulator: the sum over k of x(p, k) w(k, q). -/
theorem blockProduct_apply (x : FVec Ideal S4000x128 .bf16) (w : FVec Ideal S128x128 .bf16) (p : Fin 4000) (q : Fin 128) :
    k0_pay1 (F := Ideal) x w (ix2 p q) = ∑ k : Fin 128, x (ix2 p k) * w (ix2 k q) := by
  unfold k0_pay1
  simp only [shapeCast_self]
  show FloatOps.matmul dot_S4000x128_S128x128_S4000x128_1_0_0_1_n_n none x w (constant (F := Ideal) S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_block_0 _ _
    | ⟨1, _⟩ => exact (lhs_block_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_block_0 _ _).trans hk
    | ⟨1, _⟩ => exact rhs_block_1 _ _)
  rw [el, er]

/-- If row p of the block x is row i of the matrix X, and w is the matrix W, entry (p, q) of the block's product is
    entry (i, q) of the product X W. -/
theorem blockProduct_eq (X : (⟨S100000x128, .f32⟩ : BufTy).Contents (Elt Ideal)) (W : (⟨S128x128, .f32⟩ : BufTy).Contents (Elt Ideal))
    (x : FVec Ideal S4000x128 .bf16) (w : FVec Ideal S128x128 .bf16)
    (y : S4000x128.Idx) (p : Fin 4000) (q : Fin 128) (i : S100000x128.Idx) (hy : y = ix2 p q)
    (hx : ∀ k : Fin 128, x (ix2 p k) = X (Cert.ReferenceIdeal.Read.lidx_main_v32 i k))
    (hw : ∀ k : Fin 128, w (ix2 k q) = W (Cert.ReferenceIdeal.Read.ridx_main_v32 i k)) :
    k0_pay1 (F := Ideal) x w y = Cert.ReferenceIdeal.Read.val_main_v32 (F := Ideal) X W i := by
  subst hy
  rw [blockProduct_apply, Cert.ReferenceIdeal.Read.val_main_v32_apply]
  exact Finset.sum_congr rfl fun k _ => by rw [hx, hw]

/-! ## From the blocks to the array -/

/-- Where the three windows' blocks sit at grid point t: x's and the result's at block row t, W's always the whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two arrays the region was entered with. -/
theorem flushed_eq (c : Dev nD) (t : Fin cfg0.N) :
    (dat0 (F := Ideal) V c).flushed 2 t
      = ((cfg0.win 2).blk t).view.read (Elt Ideal) (Cert.ReferenceIdeal.Read.val_main_v32 (F := Ideal) (V c main_v32) (V c main_v33)) := by
  show (cfg0.win 2).cut (grid0.coords t) ((dat0 V c).after 2 t) = _
  rw [after0_2]
  unfold out0_2
  rw [View.canon_unit_zero origin2]
  simp only [View.ld_unit_zero (S := S4000x128) origin2, View.ld_unit_zero (S := S128x128) origin2]
  obtain ⟨e0, e1, e2, e3, e4, e5⟩ := block_indices t
  funext y
  show k0_pay1 (F := Ideal) (iblk0 V c 0 t) (iblk0 V c 1 t) y
    = Cert.ReferenceIdeal.Read.val_main_v32 (F := Ideal) (V c main_v32) (V c main_v33) (((cfg0.win 2).blk t).view.emb y)
  refine blockProduct_eq (V c main_v32) (V c main_v33) (iblk0 V c 0 t) (iblk0 V c 1 t) y (y 0) (y 1)
    (((cfg0.win 2).blk t).view.emb y) (eq_ix2 y) (fun k => ?_) (fun k => ?_)
  · -- row p of x's block t is row 4000 t + p of x, the result's row
    show V c main_v32 (((cfg0.win 0).blk t).view.emb (ix2 (y 0) k)) = V c main_v32 _
    refine congrArg (V c main_v32) (funext fun a => Fin.ext ?_)
    match a with
    | ⟨0, _⟩ => show win0_0.index t (0 : Fin 2) * 4000 + 1 * (y 0).val = win0_2.index t (0 : Fin 2) * 4000 + 1 * (y 0).val; omega
    | ⟨1, _⟩ => show win0_0.index t (1 : Fin 2) * 128 + 1 * k.val = k.val; omega
  · -- W's one block is W, and the result's column is the block's column
    show V c main_v33 (((cfg0.win 1).blk t).view.emb (ix2 k (y 1))) = V c main_v33 _
    refine congrArg (V c main_v33) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- An entry of the result array is in block t iff each coordinate is within the block's range on its axis. -/
theorem mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v34).slice (win0_2.rect t)).set ↔ _
  rw [View.set_slice_whole, Rect.mem_set_unit]
  exact Iff.rfl

/-- Row r of the result lies in block r / 4000: the 25 blocks of 4,000 rows tile the 100,000 rows. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e0, e1, e2, e3, e4, e5⟩ := block_indices t
  have ht : t.val = (i 0).val / 4000 := rfl
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

end MatmulBlocks

/-- After region 0 its output array is the matrix product of the two arrays it was entered with. -/
theorem region0_out (c : Dev nD) :
    (dat0 (F := Ideal) V c).arrAt 2 cfg0.N
      = Cert.ReferenceIdeal.Read.val_main_v32 (F := Ideal) (V c main_v32) (V c main_v33) := by
  exact (dat0 (F := Ideal) V c).arrAt_eq_of_cover 2 _ (fun t _ => MatmulBlocks.flushed_eq V c t) MatmulBlocks.covered

end Cert.KernelIdeal.KV

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Region1.lean ====
/-
  The second pipelined region: 208 blocks of 8,192 rows; each row of the gathered features is multiplied by that row's
  entry of the one-column scale array.
-/
import proofs.«171862_j82970178224660_1_alg».proof.Proof.Gen.KernelIdeal.Frame
import proofs.«171862_j82970178224660_1_alg».proof.Proof.Spec
import proofs.«171862_j82970178224660_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offset pair, as the constant function. -/
theorem zeroPair : (![0, 0] : Fin 2 → Nat) = fun _ => 0 := funext fun a => by
  match a with
  | ⟨0, _⟩ => rfl
  | ⟨1, _⟩ => rfl

/-- The three windows' block indices, decided over the 208 grid points: the features' and the output's row block is the
    point itself, the scale column's too, and every column block is block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's payload at an entry `(p, q)` of its block: the features' entry times the scale column's entry of row `p`. -/
theorem pay_apply (x0 : Vec Ideal S8192x128 .f32) (x1 : Vec Ideal S8192x1 .f32) (p : Fin 8192) (q : Fin 128) :
    k1_pay1 x0 x1 (ix2 p q) = x0 (ix2 p q) * x1 (ix2 p (0 : Fin 1)) := by
  unfold k1_pay1
  rw [shapeCast_self, shapeCast_self]
  have hb := Cert.Keepdims.broadcastTo_a1_ab_apply (α := Ideal .f32) (a := 8192) (b := 128) x1 broadcasts_S8192x1_S8192x128 p q
  show FloatOps.mulf (F := Ideal) (φ := .f32) (x0 (ix2 p q))
    (broadcastTo S8192x128 (α := Ideal .f32) x1 broadcasts_S8192x1_S8192x128 (ix2 p q)) = _
  rw [Ideal.mulf_def, hb]

/-- What point `t` writes back is block `t` of the row-scaled array. -/
theorem flushed_eq (c : Dev nD) (t : Fin cfg1.N) :
    (dat1 (F := Ideal) V c).flushed 2 t
      = ((cfg1.win 2).blk t).view.read (Elt Ideal) (scaleRows (V c main_v44) (V c main_v45)) := by
  show (cfg1.win 2).cut (grid1.coords t) ((dat1 V c).after 2 t) = _
  rw [after1_2]
  unfold out1_2
  rw [View.canon_unit_zero zeroPair]
  simp only [View.ld_unit_zero (S := S8192x128) zeroPair, View.ld_unit_zero (S := S8192x1) zeroPair]
  obtain ⟨e0, e1, e2, e3, e4, e5⟩ := idx_facts t
  funext j
  obtain ⟨p, q, rfl⟩ : ∃ (p : Fin 8192) (q : Fin 128), j = ix2 p q := ⟨j 0, j 1, eq_ix2 (n0 := 8192) (n1 := 128) j⟩
  show k1_pay1 (iblk1 V c 0 t) (iblk1 V c 1 t) (ix2 p q)
    = scaleRows (V c main_v44) (V c main_v45) (((cfg1.win 2).blk t).view.emb (ix2 p q))
  rw [pay_apply]
  have hp : p.val < 8192 := p.isLt
  have hq : q.val < 128 := q.isLt
  have h0 : ((cfg1.win 0).blk t).view.emb (ix2 p q) = ((cfg1.win 2).blk t).view.emb (ix2 p q) := by
    funext a; apply Fin.ext
    match a with
    | ⟨0, _⟩ => show win1_0.index t (0 : Fin 2) * 8192 + 1 * p.val = win1_2.index t (0 : Fin 2) * 8192 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 8192 + 1 * p.val = win1_2.index t (0 : Fin 2) * 8192 + 1 * p.val; omega
    | ⟨1, _⟩ => show win1_1.index t (1 : Fin 2) * 1 + 1 * 0 = 0; omega
  have key : ∀ (g : FVec Ideal S1703936x128 .f32) (s : FVec Ideal S1703936x1 .f32),
      g (((cfg1.win 0).blk t).view.emb (ix2 p q)) * s (((cfg1.win 1).blk t).view.emb (ix2 p (0 : Fin 1)))
        = g (((cfg1.win 2).blk t).view.emb (ix2 p q))
          * s (ix2 ((((cfg1.win 2).blk t).view.emb (ix2 p q)) 0) (0 : Fin 1)) := by
    intro g s
    rw [h0, h1]
    rfl
  exact key (V c main_v44) (V c main_v45)

/-- An index of the array is in point `t`'s block iff each coordinate is in the block's range on its axis. -/
theorem mem_blk (t : Fin cfg1.N) (i : S1703936x128.Idx) :
    i ∈ ((cfg1.win 2).blk t).view.set
      ↔ ∀ a : Fin 2, win1_2.index t a * S8192x128.size a ≤ (i a).val
          ∧ (i a).val < win1_2.index t a * S8192x128.size a + S8192x128.size a := by
  show i ∈ ((View.whole main_v46).slice (win1_2.rect t)).set ↔ _
  rw [View.set_slice_whole, Rect.mem_set_unit]
  exact Iff.rfl

/-- Every index of the array is in some point's block: row `r` is in block `r / 8192`, and the one column block is all
    128 columns. -/
theorem covered (i : S1703936x128.Idx) :
    ∃ t : Fin cfg1.N, (cfg1.win 2).flush t = true ∧ i ∈ ((cfg1.win 2).blk t).view.set := by
  have hi0 : (i 0).val < 1703936 := (i 0).isLt
  have hi1 : (i 1).val < 128 := (i 1).isLt
  have hN : cfg1.N = 208 := N_1
  let t : Fin cfg1.N := ⟨(i 0).val / 8192, by rw [hN]; omega⟩
  have ht : t.val = (i 0).val / 8192 := rfl
  obtain ⟨e0, e1, e2, e3, e4, e5⟩ := idx_facts t
  refine ⟨t, flush1_2 t, ?_⟩
  rw [mem_blk]
  intro a
  match a with
  | ⟨0, _⟩ =>
    show win1_2.index t (0 : Fin 2) * 8192 ≤ (i 0).val ∧ (i 0).val < win1_2.index t (0 : Fin 2) * 8192 + 8192
    omega
  | ⟨1, _⟩ =>
    show win1_2.index t (1 : Fin 2) * 128 ≤ (i 1).val ∧ (i 1).val < win1_2.index t (1 : Fin 2) * 128 + 128
    omega

/-- After region 1 its output array is the gathered array scaled row by row. -/
theorem region1_out (c : Dev nD) :
    (dat1 (F := Ideal) V c).arrAt 2 cfg1.N
      = scaleRows (V c main_v44) (V c main_v45) := by
  exact (dat1 (F := Ideal) V c).arrAt_eq_of_cover 2 _ (fun t _ => flushed_eq V c t) covered

end Cert.KernelIdeal.KV

end
-- ==== Proof.Region2.lean ====
/-
  The third pipelined region: 25 blocks of 4,000 rows; the one-row bias is added to every row and the result is
  cut off below at zero.
-/
import proofs.«171862_j82970178224660_1_alg».proof.Proof.Gen.KernelIdeal.Frame
import proofs.«171862_j82970178224660_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat Cfg Window)

/-- The two-coordinate offset at the origin is the zero offset. -/
theorem zero_off2 : (![0, 0] : Fin 2 → Nat) = fun _ => 0 := funext fun a => by fin_cases a <;> rfl

/-- The bias-and-cutoff body at one entry of a block: the block's entry plus the bias row's entry in the same column,
    then the maximum with zero. -/
theorem pay2_apply (x0 : Vec Ideal S4000x128 .f32) (x1 : Vec Ideal S1x128 .f32) (p : Fin 4000) (q : Fin 128) :
    k2_pay1 (F := Ideal) x0 x1 (ix2 p q)
      = max (x0 (ix2 p q) + x1 (ix2 (0 : Fin 1) q)) (FloatOps.ofBits (F := Ideal) .f32 0x00000000#32) := by
  unfold k2_pay1
  simp only [shapeCast_self]
  show max (x0 (ix2 p q) + broadcastTo S4000x128 x1 broadcasts_S1x128_S4000x128 (ix2 p q)) _ = _
  rw [broadcastTo_1b_ab_apply]
  rfl

/-- The three windows' block indices over the 25 grid points: the entered array and the result move together, one
    block of rows per point, and the bias row stays at its one block. -/
theorem idx_facts2 : ∀ t : Fin cfg2.N, win2_0.index t (0 : Fin 2) = win2_2.index t (0 : Fin 2)
    ∧ win2_0.index t (1 : Fin 2) = win2_2.index t (1 : Fin 2)
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- An index of the result array lies in point `t`'s block exactly when each coordinate lies in the block's range. -/
theorem mem_blk2 (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v51).slice (win2_2.rect t)).set ↔ _
  rw [View.set_slice_whole, Rect.mem_set_unit]
  exact Iff.rfl

/-- The 25 blocks of 4,000 rows cover the 100,000 rows: row `r` lies in block `r / 4000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 25 := N_2
  have hlt : (i 0).val / 4000 < cfg2.N := by rw [hN]; omega
  obtain ⟨-, -, -, -, e4, e5⟩ := idx_facts2 ⟨(i 0).val / 4000, hlt⟩
  have e4' : win2_2.index ⟨(i 0).val / 4000, hlt⟩ (0 : Fin 2) = (i 0).val / 4000 := e4
  refine ⟨⟨(i 0).val / 4000, hlt⟩, flush2_2 _, ?_⟩
  rw [mem_blk2]
  intro a
  match a with
  | ⟨0, _⟩ =>
    show win2_2.index ⟨(i 0).val / 4000, hlt⟩ (0 : Fin 2) * 4000 ≤ (i 0).val
      ∧ (i 0).val < win2_2.index ⟨(i 0).val / 4000, hlt⟩ (0 : Fin 2) * 4000 + 4000
    omega
  | ⟨1, _⟩ =>
    show win2_2.index ⟨(i 0).val / 4000, hlt⟩ (1 : Fin 2) * 128 ≤ (i 1).val
      ∧ (i 1).val < win2_2.index ⟨(i 0).val / 4000, hlt⟩ (1 : Fin 2) * 128 + 128
    omega

variable (V : (c : Dev nD) → (b : Ref sig .tc) → Buf (Elt Ideal) ((c : Thread nD τ).loc b))

/-- What point `t` writes back is block `t` of the entered array plus the bias row, cut off below at zero. -/
theorem flushed2_eq (c : Dev nD) (t : Fin cfg2.N) :
    (dat2 (F := Ideal) V c).flushed 2 t
      = ((cfg2.win 2).blk t).view.read (Elt Ideal) (biasRelu (V c main_v49) (V c main_v50)) := by
  show (cfg2.win 2).cut (grid2.coords t) ((dat2 V c).after 2 t) = _
  rw [after2_2]
  unfold out2_2
  rw [View.canon_unit_zero zero_off2]
  simp only [View.ld_unit_zero (S := S4000x128) zero_off2, View.ld_unit_zero (S := S1x128) zero_off2]
  obtain ⟨e0, e1, e2, e3, e4, e5⟩ := idx_facts2 t
  funext j
  revert j
  show ∀ j : S4000x128.Idx, k2_pay1 (iblk2 V c 0 t) (iblk2 V c 1 t) j
      = biasRelu (V c main_v49) (V c main_v50) (((cfg2.win 2).blk t).view.emb j)
  intro j
  obtain ⟨p, q, rfl⟩ : ∃ p q, j = ix2 p q := ⟨j 0, j 1, eq_ix2 j⟩
  rw [pay2_apply]
  unfold biasRelu
  -- the entered array's block at the point is read where the result's block lies,
  have h0 : ((cfg2.win 0).blk t).view.emb (ix2 p q) = ((cfg2.win 2).blk t).view.emb (ix2 p q) := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 128 + 1 * q.val = win2_2.index t (1 : Fin 2) * 128 + 1 * q.val; omega
  -- and the bias row's one block is the row itself, read in the result's column.
  have h1 : ((cfg2.win 1).blk t).view.emb (ix2 (0 : Fin 1) q)
      = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega
  have a0 : iblk2 V c 0 t (ix2 p q) = V c main_v49 (((cfg2.win 2).blk t).view.emb (ix2 p q)) := by
    show V c main_v49 (((cfg2.win 0).blk t).view.emb (ix2 p q)) = _
    exact congrArg (V c main_v49) h0
  have a1 : iblk2 V c 1 t (ix2 (0 : Fin 1) q)
      = V c main_v50 (ix2 (0 : Fin 1) ((((cfg2.win 2).blk t).view.emb (ix2 p q)) 1)) := by
    show V c main_v50 (((cfg2.win 1).blk t).view.emb (ix2 (0 : Fin 1) q)) = _
    exact congrArg (V c main_v50) h1
  rw [a0, a1]

/-- After region 2 its output array is the maximum of zero and the entered array plus the bias row. -/
theorem region2_out (c : Dev nD) :
    (dat2 (F := Ideal) V c).arrAt 2 cfg2.N
      = biasRelu (V c main_v49) (V c main_v50) :=
  (dat2 V c).arrAt_eq_of_cover 2 _ (fun t _ => flushed2_eq V c t) cover2

end Cert.KernelIdeal.KV

end
-- ==== Proof.HostA.lean ====
/-
  The host operations before the first region, read back. They are the reference's own first operations (source and
  target index vectors with the self loops appended, the edge weights with ones appended, the weighted in-degree, its
  inverse square root where positive, the per-edge normalisation) followed by two changes of float format, which over
  the extended reals are the identity.
-/
import proofs.«171862_j82970178224660_1_alg».proof.Proof.Gen.KernelIdeal.Frame
import proofs.«171862_j82970178224660_1_alg».proof.Proof.Gen.ReferenceIdeal.Read
import proofs.«171862_j82970178224660_1_alg».proof.Proof.Spec
import Idealize.ShloMosaic.Lib.StableHlo.Run
import Idealize.ShloMosaic.Lib.ValueIdx

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat Cfg Window)
open Idealize.ShloMosaic.StableHlo

/-! ## The three stretches of host operations, each read from ANY contents on entry

Every buffer a later stretch (or a region) reads is given as the reference's stage function of the contents the
stretch found at the buffers it reads; a buffer a stretch does not write keeps its contents. -/

section Stretch0

variable (V : Valuation τ sig (Elt Ideal))

/-! ### First stretch: indices and weights with the self loops appended, weighted in-degree, its inverse root -/

theorem hostA_s0_v5 : (StableHlo.after hostOps0 V (Proc.devRef .tc main_v5) : IVec S1700000 32)
    = Cert.ReferenceIdeal.Read.val_main_v3 (F := Ideal) (V (Proc.devRef .tc main_arg1)) := by
  dsimp only [hostOps0]
  after_results
  rfl

theorem hostA_s0_v6 : (StableHlo.after hostOps0 V (Proc.devRef .tc main_v6) : IVec S1700000 32)
    = Cert.ReferenceIdeal.Read.val_main_v6 (F := Ideal) (V (Proc.devRef .tc main_arg1)) := by
  dsimp only [hostOps0]
  after_results
  rfl

theorem hostA_s0_v8 : (StableHlo.after hostOps0 V (Proc.devRef .tc main_v8) : S1700000.Idx → EReal)
    = Cert.ReferenceIdeal.Read.val_main_v8 (F := Ideal) (V (Proc.devRef .tc main_arg2)) := by
  dsimp only [hostOps0]
  after_results
  rfl

theorem hostA_s0_v13 : (StableHlo.after hostOps0 V (Proc.devRef .tc main_v13) : IVec S100000 1)
    = Cert.ReferenceIdeal.Read.val_main_v13 (F := Ideal) (V (Proc.devRef .tc main_arg1)) (V (Proc.devRef .tc main_arg2)) := by
  dsimp only [hostOps0]
  after_results
  rfl

theorem hostA_s0_v14 : (StableHlo.after hostOps0 V (Proc.devRef .tc main_v14) : S100000.Idx → EReal)
    = Cert.ReferenceIdeal.Read.val_main_v14 (F := Ideal) (V (Proc.devRef .tc main_arg1)) (V (Proc.devRef .tc main_arg2)) := by
  dsimp only [hostOps0]
  after_results
  rfl

theorem hostA_s0_cst_2 : (StableHlo.after hostOps0 V (Proc.devRef .tc main_cst_2) : S_.Idx → EReal)
    = Cert.ReferenceIdeal.Read.val_main_cst_2 (F := Ideal) := by
  dsimp only [hostOps0]
  after_results
  rfl

theorem hostA_s0_arg0 : StableHlo.after hostOps0 V (Proc.devRef .tc main_arg0) = V (Proc.devRef .tc main_arg0) := by
  dsimp only [hostOps0]
  after_results

theorem hostA_s0_arg3 : StableHlo.after hostOps0 V (Proc.devRef .tc main_arg3) = V (Proc.devRef .tc main_arg3) := by
  dsimp only [hostOps0]
  after_results

end Stretch0

section Stretch1

variable (V : Valuation τ sig (Elt Ideal))

/-! ### Second stretch: the inverse root kept where the in-degree is positive, zero elsewhere -/

theorem hostA_s1_v15_raw :
    (StableHlo.after hostOps0_1 V (Proc.devRef .tc main_v15) : S100000.Idx → EReal)
      = select (V (Proc.devRef .tc main_v13) : IVec S100000 1) (V (Proc.devRef .tc main_v14) : S100000.Idx → EReal)
          (broadcastInDim S100000 ![] bcast_S_S100000 (id (V (Proc.devRef .tc main_cst_2) : S_.Idx → EReal))) := by
  dsimp only [hostOps0_1]
  after_results
  rfl

theorem hostA_s1_v15 (x1 : IVec Cert.ReferenceIdeal.S2x1600000 32) (x2 : FVec Ideal Cert.ReferenceIdeal.S1600000 .f32)
    (h13 : (V (Proc.devRef .tc main_v13) : IVec S100000 1) = Cert.ReferenceIdeal.Read.val_main_v13 (F := Ideal) x1 x2)
    (h14 : (V (Proc.devRef .tc main_v14) : S100000.Idx → EReal) = Cert.ReferenceIdeal.Read.val_main_v14 (F := Ideal) x1 x2)
    (hc : (V (Proc.devRef .tc main_cst_2) : S_.Idx → EReal) = Cert.ReferenceIdeal.Read.val_main_cst_2 (F := Ideal)) :
    (StableHlo.after hostOps0_1 V (Proc.devRef .tc main_v15) : S100000.Idx → EReal) = Cert.ReferenceIdeal.Read.val_main_v15 (F := Ideal) x1 x2 := by
  rw [hostA_s1_v15_raw, h13, h14, hc]
  unfold Cert.ReferenceIdeal.Read.val_main_v15 Cert.ReferenceIdeal.Read.val_main_call0_v1 Cert.ReferenceIdeal.Read.val_main_call0_v0
  rfl

theorem hostA_s1_v5 : StableHlo.after hostOps0_1 V (Proc.devRef .tc main_v5) = V (Proc.devRef .tc main_v5) := by
  dsimp only [hostOps0_1]
  after_results

theorem hostA_s1_v6 : StableHlo.after hostOps0_1 V (Proc.devRef .tc main_v6) = V (Proc.devRef .tc main_v6) := by
  dsimp only [hostOps0_1]
  after_results

theorem hostA_s1_v8 : StableHlo.after hostOps0_1 V (Proc.devRef .tc main_v8) = V (Proc.devRef .tc main_v8) := by
  dsimp only [hostOps0_1]
  after_results

theorem hostA_s1_arg0 : StableHlo.after hostOps0_1 V (Proc.devRef .tc main_arg0) = V (Proc.devRef .tc main_arg0) := by
  dsimp only [hostOps0_1]
  after_results

theorem hostA_s1_arg3 : StableHlo.after hostOps0_1 V (Proc.devRef .tc main_arg3) = V (Proc.devRef .tc main_arg3) := by
  dsimp only [hostOps0_1]
  after_results

end Stretch1

section Stretch2

variable (V : Valuation τ sig (Elt Ideal))

/-! ### Third stretch: the per-edge normalisation, and the two changes of float format -/

theorem hostA_s2_v31 (x1 : IVec Cert.ReferenceIdeal.S2x1600000 32) (x2 : FVec Ideal Cert.ReferenceIdeal.S1600000 .f32)
    (h5 : (V (Proc.devRef .tc main_v5) : IVec S1700000 32) = Cert.ReferenceIdeal.Read.val_main_v3 (F := Ideal) x1)
    (h6 : (V (Proc.devRef .tc main_v6) : IVec S1700000 32) = Cert.ReferenceIdeal.Read.val_main_v6 (F := Ideal) x1)
    (h8 : (V (Proc.devRef .tc main_v8) : S1700000.Idx → EReal) = Cert.ReferenceIdeal.Read.val_main_v8 (F := Ideal) x2)
    (h15 : (V (Proc.devRef .tc main_v15) : S100000.Idx → EReal) = Cert.ReferenceIdeal.Read.val_main_v15 (F := Ideal) x1 x2) :
    (StableHlo.after hostOps0_2 V (Proc.devRef .tc main_v31) : S1700000.Idx → EReal) = Cert.ReferenceIdeal.Read.val_main_v31 (F := Ideal) x1 x2 := by
  dsimp only [hostOps0_2]
  after_results_simp
  rw [h5, h6, h8, h15]
  unfold Cert.ReferenceIdeal.Read.val_main_v31
    Cert.ReferenceIdeal.Read.val_main_v23
    Cert.ReferenceIdeal.Read.val_main_v22
    Cert.ReferenceIdeal.Read.val_main_v21
    Cert.ReferenceIdeal.Read.val_main_v20
    Cert.ReferenceIdeal.Read.val_main_v17
    Cert.ReferenceIdeal.Read.val_main_v16
    Cert.ReferenceIdeal.Read.val_main_c
    Cert.ReferenceIdeal.Read.val_main_v19
    Cert.ReferenceIdeal.Read.val_main_v18
    Cert.ReferenceIdeal.Read.val_main_c_3
    Cert.ReferenceIdeal.Read.val_main_v30
    Cert.ReferenceIdeal.Read.val_main_v29
    Cert.ReferenceIdeal.Read.val_main_v28
    Cert.ReferenceIdeal.Read.val_main_v25
    Cert.ReferenceIdeal.Read.val_main_v24
    Cert.ReferenceIdeal.Read.val_main_c_4
    Cert.ReferenceIdeal.Read.val_main_v27
    Cert.ReferenceIdeal.Read.val_main_v26
    Cert.ReferenceIdeal.Read.val_main_c_5
  rfl

theorem hostA_s2_v5 : StableHlo.after hostOps0_2 V (Proc.devRef .tc main_v5) = V (Proc.devRef .tc main_v5) := by
  dsimp only [hostOps0_2]
  after_results_simp

theorem hostA_s2_v6 : StableHlo.after hostOps0_2 V (Proc.devRef .tc main_v6) = V (Proc.devRef .tc main_v6) := by
  dsimp only [hostOps0_2]
  after_results_simp

theorem hostA_s2_v32 : (StableHlo.after hostOps0_2 V (Proc.devRef .tc main_v32) : S100000x128.Idx → EReal) = V (Proc.devRef .tc main_arg0) := by
  dsimp only [hostOps0_2]
  after_results_simp
  rfl

theorem hostA_s2_v33 : (StableHlo.after hostOps0_2 V (Proc.devRef .tc main_v33) : S128x128.Idx → EReal) = V (Proc.devRef .tc main_arg3) := by
  dsimp only [hostOps0_2]
  after_results_simp
  rfl

end Stretch2

/-! ## The three stretches composed, from the launch memory -/

variable (m : (ℓ : Loc nD τ sig) → Buf (Elt Ideal) ℓ) (ρ : Dev nD → PrngReg)

/-- Region 0's first operand is x: the change of format to bf16 is the identity over the extended reals. -/
theorem V3_x (c : Dev nD) :
    (V3 m ρ c main_v32 : S100000x128.Idx → EReal) = m ((c : Thread nD τ).loc main_arg0) := by
  exact (hostA_s2_v32 (W2 m ρ c)).trans ((hostA_s1_arg0 (W1 m ρ c)).trans (hostA_s0_arg0 (W0 m ρ c)))

/-- Region 0's second operand is the weight matrix. -/
theorem V3_w (c : Dev nD) :
    (V3 m ρ c main_v33 : S128x128.Idx → EReal) = m ((c : Thread nD τ).loc main_arg3) := by
  exact (hostA_s2_v33 (W2 m ρ c)).trans ((hostA_s1_arg3 (W1 m ρ c)).trans (hostA_s0_arg3 (W0 m ρ c)))

/-- The source indices with the self loops appended are the reference's. -/
theorem W3_row (c : Dev nD) :
    (W3 m ρ c (Proc.devRef .tc main_v5) : IVec S1700000 32)
      = Cert.ReferenceIdeal.Read.val_main_v3 (F := Ideal) (m ((c : Thread nD τ).loc main_arg1)) := by
  exact (hostA_s2_v5 (W2 m ρ c)).trans ((hostA_s1_v5 (W1 m ρ c)).trans (hostA_s0_v5 (W0 m ρ c)))

/-- The target indices with the self loops appended are the reference's. -/
theorem W3_col (c : Dev nD) :
    (W3 m ρ c (Proc.devRef .tc main_v6) : IVec S1700000 32)
      = Cert.ReferenceIdeal.Read.val_main_v6 (F := Ideal) (m ((c : Thread nD τ).loc main_arg1)) := by
  exact (hostA_s2_v6 (W2 m ρ c)).trans ((hostA_s1_v6 (W1 m ρ c)).trans (hostA_s0_v6 (W0 m ρ c)))

/-- The per-edge normalisation weights are the reference's. -/
theorem W3_norm (c : Dev nD) :
    (W3 m ρ c (Proc.devRef .tc main_v31) : S1700000.Idx → EReal)
      = Cert.ReferenceIdeal.Read.val_main_v31 (F := Ideal) (m ((c : Thread nD τ).loc main_arg1)) (m ((c : Thread nD τ).loc main_arg2)) := by
  have h5 : (W2 m ρ c (Proc.devRef .tc main_v5) : IVec S1700000 32) = Cert.ReferenceIdeal.Read.val_main_v3 (F := Ideal) (m ((c : Thread nD τ).loc main_arg1)) :=
    (hostA_s1_v5 (W1 m ρ c)).trans (hostA_s0_v5 (W0 m ρ c))
  have h6 : (W2 m ρ c (Proc.devRef .tc main_v6) : IVec S1700000 32) = Cert.ReferenceIdeal.Read.val_main_v6 (F := Ideal) (m ((c : Thread nD τ).loc main_arg1)) :=
    (hostA_s1_v6 (W1 m ρ c)).trans (hostA_s0_v6 (W0 m ρ c))
  have h8 : (W2 m ρ c (Proc.devRef .tc main_v8) : S1700000.Idx → EReal) = Cert.ReferenceIdeal.Read.val_main_v8 (F := Ideal) (m ((c : Thread nD τ).loc main_arg2)) :=
    (hostA_s1_v8 (W1 m ρ c)).trans (hostA_s0_v8 (W0 m ρ c))
  have h15 : (W2 m ρ c (Proc.devRef .tc main_v15) : S100000.Idx → EReal)
      = Cert.ReferenceIdeal.Read.val_main_v15 (F := Ideal) (m ((c : Thread nD τ).loc main_arg1)) (m ((c : Thread nD τ).loc main_arg2)) :=
    hostA_s1_v15 (W1 m ρ c) _ _ (hostA_s0_v13 (W0 m ρ c)) (hostA_s0_v14 (W0 m ρ c)) (hostA_s0_cst_2 (W0 m ρ c))
  exact hostA_s2_v31 (W2 m ρ c) _ _ h5 h6 h8 h15

end Cert.KernelIdeal.KV

end
-- ==== Proof.HostB.lean ====
/-
  The host operations between the regions and before the last one, read back over the arrays the regions leave: the
  padding of the edge vectors, the row gather out of region 0's product, the scale column, the scatter-add of region 1's
  messages, and the bias row; and the result array as region 2 leaves it.
-/
import proofs.«171862_j82970178224660_1_alg».proof.Proof.Gen.KernelIdeal.Frame
import proofs.«171862_j82970178224660_1_alg».proof.Proof.Gen.ReferenceIdeal.Read
import proofs.«171862_j82970178224660_1_alg».proof.Proof.Spec
import proofs.«171862_j82970178224660_1_alg».proof.Proof.HostA
import Idealize.ShloMosaic.Lib.StableHlo.Run
import Idealize.ShloMosaic.Lib.ValueIdx

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Idealize.ShloMosaic.Pipeline (Dat Cfg Window)
open Idealize.ShloMosaic.StableHlo

variable (m : (ℓ : Loc nD τ sig) → Buf (Elt Ideal) ℓ) (ρ : Dev nD → PrngReg)

/-- A buffer that no operation of a stretch writes holds after the stretch what it held before it. -/
local macro "carry_back" : tactic =>
  `(tactic| (refine StableHlo.after_of_forall_not_mem _ _ (List.forall_iff_forall_mem.mp ?_)
             simp only [hostOps1, hostOps1_1, hostOps1_2, hostOps1_3, hostOps1_4, hostOps1_5, hostOps1_6, hostOps2,
               List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- The bias argument is untouched up to region 1's exit. -/
theorem W12_arg4 (c : Dev nD) :
    W12 m ρ c (Proc.devRef .tc main_arg4) = m ((c : Thread nD τ).loc main_arg4) := by
  have h13 : W13 m ρ c (Proc.devRef .tc main_arg4) = W12 m ρ c (Proc.devRef .tc main_arg4) := by
    show StableHlo.after hostOps2 (W12 m ρ c) (Proc.devRef .tc main_arg4) = _
    carry_back
  have h14 : W14 m ρ c (Proc.devRef .tc main_arg4) = W13 m ρ c (Proc.devRef .tc main_arg4) :=
    W14_of_ne m ρ c main_arg4 (by decide)
  exact h13.symm.trans (h14.symm.trans (W14_main_arg4 m ρ c))

/-- The padded target indices, written between regions 0 and 1, as they stand at region 1's exit. -/
theorem W12_v36 (c : Dev nD) :
    (W12 m ρ c (Proc.devRef .tc main_v36) : IVec S1703936 32)
      = padI (Cert.ReferenceIdeal.Read.val_main_v6 (F := Ideal) (m ((c : Thread nD τ).loc main_arg1))) := by
  have h6 : W4 m ρ c (Proc.devRef .tc main_v6)
      = Cert.ReferenceIdeal.Read.val_main_v6 (F := Ideal) (m ((c : Thread nD τ).loc main_arg1)) :=
    (W4_of_ne m ρ c main_v6 (by decide)).trans (W3_col m ρ c)
  refine (W12_of_ne m ρ c main_v36 (by decide)).trans ?_
  show StableHlo.after hostOps1_6 (StableHlo.after hostOps1_5 (StableHlo.after hostOps1_4 (StableHlo.after hostOps1_3 (StableHlo.after hostOps1_2 (StableHlo.after hostOps1_1 (StableHlo.after hostOps1 (W4 m ρ c))))))) (Proc.devRef .tc main_v36) = _
  dsimp only [hostOps1, hostOps1_1, hostOps1_2, hostOps1_3, hostOps1_4, hostOps1_5, hostOps1_6]
  after_results
  simp only [TRef.ofBuf, TRef.toBuf, cast_eq, id_eq]
  rw [h6]
  unfold padI
  rfl

/-- Region 1's first operand: the rows of region 0's output gathered at the padded, wrapped source indices. -/
theorem V11_gath (c : Dev nD) :
    (V11 m ρ c main_v44 : S1703936x128.Idx → EReal)
      = gath ((dat0 (F := Ideal) (V3 m ρ) c).arrAt 2 cfg0.N)
          (Cert.ReferenceIdeal.Read.val_main_v3 (F := Ideal) (m ((c : Thread nD τ).loc main_arg1))) := by
  have h34 : W4 m ρ c (Proc.devRef .tc main_v34) = (dat0 (F := Ideal) (V3 m ρ) c).arrAt 2 cfg0.N := W4_arr m ρ c 2
  have h5 : W4 m ρ c (Proc.devRef .tc main_v5)
      = Cert.ReferenceIdeal.Read.val_main_v3 (F := Ideal) (m ((c : Thread nD τ).loc main_arg1)) :=
    (W4_of_ne m ρ c main_v5 (by decide)).trans (W3_row m ρ c)
  show StableHlo.after hostOps1_6 (StableHlo.after hostOps1_5 (StableHlo.after hostOps1_4 (StableHlo.after hostOps1_3 (StableHlo.after hostOps1_2 (StableHlo.after hostOps1_1 (StableHlo.after hostOps1 (W4 m ρ c))))))) (Proc.devRef .tc main_v44) = _
  dsimp only [hostOps1, hostOps1_1, hostOps1_2, hostOps1_3, hostOps1_4, hostOps1_5, hostOps1_6]
  after_results_simp
  simp only [TRef.ofBuf, TRef.toBuf, cast_eq, id_eq]
  rw [h34, h5]
  unfold gath colI wrapI padI
  rfl

/-- Region 1's second operand: the padded normalisation weights as a column. -/
theorem V11_norm (c : Dev nD) :
    (V11 m ρ c main_v45 : S1703936x1.Idx → EReal)
      = colF (padF (Cert.ReferenceIdeal.Read.val_main_v31 (F := Ideal) (m ((c : Thread nD τ).loc main_arg1)) (m ((c : Thread nD τ).loc main_arg2)))) := by
  have h31 : W4 m ρ c (Proc.devRef .tc main_v31)
      = Cert.ReferenceIdeal.Read.val_main_v31 (F := Ideal) (m ((c : Thread nD τ).loc main_arg1)) (m ((c : Thread nD τ).loc main_arg2)) :=
    (W4_of_ne m ρ c main_v31 (by decide)).trans (W3_norm m ρ c)
  show StableHlo.after hostOps1_6 (StableHlo.after hostOps1_5 (StableHlo.after hostOps1_4 (StableHlo.after hostOps1_3 (StableHlo.after hostOps1_2 (StableHlo.after hostOps1_1 (StableHlo.after hostOps1 (W4 m ρ c))))))) (Proc.devRef .tc main_v45) = _
  dsimp only [hostOps1, hostOps1_1, hostOps1_2, hostOps1_3, hostOps1_4, hostOps1_5, hostOps1_6]
  after_results
  simp only [TRef.ofBuf, TRef.toBuf, cast_eq, id_eq]
  rw [h31]
  unfold colF padF
  rfl

/-- Region 2's first operand: region 1's output added up per padded target index. -/
theorem V13_scat (c : Dev nD) :
    (V13 m ρ c main_v49 : S100000x128.Idx → EReal)
      = scat (Cert.ReferenceIdeal.Read.val_main_v6 (F := Ideal) (m ((c : Thread nD τ).loc main_arg1)))
          ((dat1 (F := Ideal) (V11 m ρ) c).arrAt 2 cfg1.N) := by
  have h46 : W12 m ρ c (Proc.devRef .tc main_v46) = (dat1 (F := Ideal) (V11 m ρ) c).arrAt 2 cfg1.N := W12_arr m ρ c 2
  show StableHlo.after hostOps2 (W12 m ρ c) (Proc.devRef .tc main_v49) = _
  dsimp only [hostOps2]
  after_results
  rw [h46, W12_v36]
  unfold scat colI
  rfl

/-- Region 2's second operand: the bias as a row. -/
theorem V13_bias (c : Dev nD) :
    (V13 m ρ c main_v50 : S1x128.Idx → EReal) = biasRow (m ((c : Thread nD τ).loc main_arg4)) := by
  show StableHlo.after hostOps2 (W12 m ρ c) (Proc.devRef .tc main_v50) = _
  dsimp only [hostOps2]
  after_results
  rw [W12_arg4]
  rfl

/-- The result array at the end of the run is region 2's output array. -/
theorem W14_out (c : Dev nD) :
    W14 m ρ c (Proc.devRef .tc main_v51) = (dat2 (F := Ideal) (V13 m ρ) c).arrAt 2 cfg2.N := by
  exact W14_arr m ρ c 2

end Cert.KernelIdeal.KV

end
-- ==== Proof.RowOps.lean ====
/-
  A row gather and a row scatter read at an index. For an operand of N rows and C columns and R start indices held as an
  [R, 1] integer matrix: the gather that takes whole rows (offset axis 1, collapsed axis 0) has, at (e, c), the operand at
  row `min (idx e) (N - 1)` (the start index read signed, negative as 0) and column c; the scatter of whole rows
  (window axis 1, inserted axis 0) sends update element (e, c) to operand element (idx e, c) exactly when the signed
  start index is a row of the operand.
-/
import Idealize.ShloMosaic.PureOps.Ideal
import Idealize.ShloMosaic.Lib.ValueIdx

noncomputable section

namespace Cert.KernelIdeal.KV

open Idealize.ShloMosaic Idealize.ShloMosaic.ValueIdx

variable {α : Type}

/-- The dimension numbers of a whole-row gather: operand [N, C], start indices [R, 1], result [R, C]. -/
abbrev rowsGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at (e, c): the operand's row named by start index e, clamped into the operand, at column c. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowsGather N C R wf) x idx j
      = x (ix2 ⟨min (idx (ix2 (j 0) (0 : Fin 1))).toInt.toNat (N - 1), by omega⟩ (j 1)) := by
  have h10 : ¬((1 : Fin 2) = 0) := by decide
  unfold Host.gather
  congr 1
  funext a
  refine Fin.ext ?_
  match a with
  | ⟨0, _⟩ =>
    show (rowsGather N C R wf).start j idx 0 + (rowsGather N C R wf).batchCoord j 0 + (rowsGather N C R wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C R wf).startIndexMap from List.mem_singleton.mpr rfl)]
    have hsi : (rowsGather N C R wf).siIdx j ⟨List.idxOf (0 : Fin 2) (rowsGather N C R wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (rowsGather N C R wf).start j idx 1 + (rowsGather N C R wf).batchCoord j 1 + (rowsGather N C R wf).offCoord j 1 = _
    rw [GatherDims.batchCoord_eq_zero _ _ _ List.not_mem_nil]
    unfold GatherDims.start
    rw [dif_neg (show (1 : Fin 2) ∉ (rowsGather N C R wf).startIndexMap from fun h => h10 (List.mem_singleton.mp h))]
    simp only [Nat.add_zero, Nat.zero_add]
    unfold GatherDims.offCoord
    rw [dif_pos (show (1 : Fin 2) ∈ (rowsGather N C R wf).sKept from (GatherDims.mem_sKept _ _).mpr
      ⟨fun h => h10 (List.mem_singleton.mp h), List.not_mem_nil⟩)]
    rfl

/-- The dimension numbers of a whole-row scatter: operand [N, C], scatter indices [R, 1], updates [R, C]. -/
abbrev rowsScatter (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update element (e, c) of a row scatter lands on operand element i exactly when start index e, read signed, is
    i's row and c is i's column. -/
theorem scatter_rows_resultIdx {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowsScatter N C R wf).resultIdx? j idx = some i
      ↔ (idx (ix2 (j 0) (0 : Fin 1))).toInt = ((i 0).val : Int) ∧ (j 1).val = (i 1).val := by
  have h10 : ¬((1 : Fin 2) = 0) := by decide
  have hsi : (rowsScatter N C R wf).siIdx j ⟨List.idxOf (0 : Fin 2) (rowsScatter N C R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  have hs0 : (rowsScatter N C R wf).start j idx 0 = (idx (ix2 (j 0) (0 : Fin 1))).toInt := by
    unfold ScatterDims.start
    rw [dif_pos (show (0 : Fin 2) ∈ (rowsScatter N C R wf).scatterDimsToOperandDims from List.mem_singleton.mpr rfl), hsi]
    rfl
  have hs1 : (rowsScatter N C R wf).start j idx 1 = 0 := by
    unfold ScatterDims.start
    rw [dif_neg (show (1 : Fin 2) ∉ (rowsScatter N C R wf).scatterDimsToOperandDims from
      fun h => h10 (List.mem_singleton.mp h))]
  have hw0 : (rowsScatter N C R wf).window j 0 = 0 := by
    unfold ScatterDims.window
    rw [dif_neg (show (0 : Fin 2) ∉ (rowsScatter N C R wf).sKept from
      fun h => (of_decide_eq_true (List.mem_filter.mp h).2) (List.mem_singleton.mpr rfl))]
  have hw1 : (rowsScatter N C R wf).window j 1 = (j 1).val := by
    unfold ScatterDims.window
    rw [dif_pos (show (1 : Fin 2) ∈ (rowsScatter N C R wf).sKept from
      List.mem_filter.mpr ⟨List.mem_finRange _, decide_eq_true (fun h => h10 (List.mem_singleton.mp h))⟩)]
    rfl
  have hi0 : (i 0).val < N := (i 0).isLt
  have hj1 : (j 1).val < C := (j 1).isLt
  unfold ScatterDims.resultIdx?
  split
  · rename_i h
    rw [Option.some.injEq]
    have h0 := h 0
    rw [hs0, hw0] at h0
    constructor
    · intro he
      have e0 : ((rowsScatter N C R wf).start j idx 0 + ((rowsScatter N C R wf).window j 0 : Nat)).toNat = (i 0).val :=
        congrArg (fun f => (f 0).val) he
      have e1 : ((rowsScatter N C R wf).start j idx 1 + ((rowsScatter N C R wf).window j 1 : Nat)).toNat = (i 1).val :=
        congrArg (fun f => (f 1).val) he
      rw [hs0, hw0] at e0
      rw [hs1, hw1] at e1
      constructor <;> omega
    · rintro ⟨g0, g1⟩
      funext a
      refine Fin.ext ?_
      match a with
      | ⟨0, _⟩ =>
        show ((rowsScatter N C R wf).start j idx 0 + ((rowsScatter N C R wf).window j 0 : Nat)).toNat = (i 0).val
        rw [hs0, hw0]; omega
      | ⟨1, _⟩ =>
        show ((rowsScatter N C R wf).start j idx 1 + ((rowsScatter N C R wf).window j 1 : Nat)).toNat = (i 1).val
        rw [hs1, hw1]; omega
  · rename_i h
    constructor
    · intro he
      exact absurd he (by simp)
    · rintro ⟨g0, g1⟩
      exfalso
      apply h
      intro a
      match a with
      | ⟨0, _⟩ =>
        show 0 ≤ (rowsScatter N C R wf).start j idx 0 + ((rowsScatter N C R wf).window j 0 : Nat)
          ∧ (rowsScatter N C R wf).start j idx 0 + ((rowsScatter N C R wf).window j 0 : Nat) < (N : Int)
        rw [hs0, hw0]; omega
      | ⟨1, _⟩ =>
        show 0 ≤ (rowsScatter N C R wf).start j idx 1 + ((rowsScatter N C R wf).window j 1 : Nat)
          ∧ (rowsScatter N C R wf).start j idx 1 + ((rowsScatter N C R wf).window j 1 : Nat) < (C : Int)
        rw [hs1, hw1]; omega

end Cert.KernelIdeal.KV

end
-- ==== Proof.Math.lean ====
/-
  The kernel program's result is the reference's. Both add up, per target node, the gathered feature rows times their
  edge weights and then add the bias and cut off at zero; the kernel program does it over 3,936 extra entries whose
  weight is zero and whose source and target index are zero. Over the extended reals a product with zero is zero, so the
  extra entries add nothing, and on the first 1,700,000 entries the padded vectors are the unpadded ones.
-/
import proofs.«171862_j82970178224660_1_alg».proof.Proof.Spec
import proofs.«171862_j82970178224660_1_alg».proof.Proof.RowOps
import Idealize.ShloMosaic.Lib.KernelVsHost
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx
open scoped BigOperators

/-! ## The padded vectors at an entry -/

/-- A padded integer vector at one of the first 1,700,000 entries is the vector there. -/
theorem padI_inside (v : IVec S1700000 32) (e : Fin 1700000) (e' : Fin 1703936) (h : e'.val = e.val) :
    padI v (ix1 e') = v (ix1 e) := by
  unfold padI
  exact pad_apply_of_inside _ _ _ v _ pads_S1700000_S1703936_039360 h_S_ (ix1 e') (ix1 e) (fun a => by
    obtain rfl : a = 0 := Subsingleton.elim _ _
    show e'.val = 0 + e.val * (0 + 1)
    omega)

/-- A padded real vector at one of the first 1,700,000 entries is the vector there. -/
theorem padF_inside (v : FVec Ideal S1700000 .f32) (e : Fin 1700000) (e' : Fin 1703936) (h : e'.val = e.val) :
    padF v (ix1 e') = v (ix1 e) := by
  unfold padF
  exact pad_apply_of_inside _ _ _ v _ pads_S1700000_S1703936_039360 h_S_ (ix1 e') (ix1 e) (fun a => by
    obtain rfl : a = 0 := Subsingleton.elim _ _
    show e'.val = 0 + e.val * (0 + 1)
    omega)

/-- A padded real vector is zero at the 3,936 added entries. -/
theorem padF_outside (v : FVec Ideal S1700000 .f32) (e' : Fin 1703936) (h : 1700000 ≤ e'.val) :
    padF v (ix1 e') = 0 := by
  unfold padF
  rw [pad_apply_of_not_inside _ _ _ v _ pads_S1700000_S1703936_039360 h_S_ (ix1 e') 0 (by
    intro hin
    have h3 : (e'.val - 0) / (0 + 1) < 1700000 := hin.2.2
    simp only [Nat.sub_zero, Nat.zero_add, Nat.div_one] at h3
    omega)]
  exact Ideal.ofBits_zero_f32

/-- A one-column matrix of a vector at (e, 0) is the vector at e. -/
theorem colI_apply (p : IVec S1703936 32) (e : Fin 1703936) (u : Fin 1) : colI p (ix2 e u) = p (ix1 e) := by
  unfold colI
  exact broadcastInDim_apply _ bcast_S1703936_S1703936x1_0 p (ix2 e u) (ix1 e) (fun a => match a with
    | ⟨0, _⟩ => by show e.val = if (1703936 : Nat) = 1 then 0 else e.val; rw [if_neg (by decide)])

/-- A one-column matrix of a vector at (e, 0) is the vector at e. -/
theorem colF_apply (p : FVec Ideal S1703936 .f32) (e : Fin 1703936) (u : Fin 1) : colF p (ix2 e u) = p (ix1 e) := by
  unfold colF
  exact broadcastInDim_apply _ bcast_S1703936_S1703936x1_0 p (ix2 e u) (ix1 e) (fun a => match a with
    | ⟨0, _⟩ => by show e.val = if (1703936 : Nat) = 1 then 0 else e.val; rw [if_neg (by decide)])

/-- The wrap of a negative index, on one word. -/
def wrapW (w : BitVec 32) : BitVec 32 := Scalar.select (IntOp.cmpi .slt w 0#32) (IntOp.addi w 100000#32) w

/-- The kernel program's wrap acts entry by entry. -/
theorem wrapI_apply (p : IVec S1703936 32) (k : S1703936.Idx) : wrapI p k = wrapW (p k) := by
  unfold wrapI wrapW
  rw [select_apply]
  show Scalar.select (IntOp.cmpi .slt (p k) (broadcastInDim S1703936 ![] bcast_S_S1703936 (constantI S_ 32 0#32) k))
      (IntOp.addi (p k) (broadcastInDim S1703936 ![] bcast_S_S1703936 (constantI S_ 32 100000#32) k)) (p k) = _
  rw [broadcastInDim_apply _ bcast_S_S1703936 (constantI S_ 32 0#32) k ix0 (fun a => a.elim0),
    broadcastInDim_apply _ bcast_S_S1703936 (constantI S_ 32 100000#32) k ix0 (fun a => a.elim0)]
  rfl

/-- The reference's wrap acts entry by entry, by the same word function. -/
theorem wrapR_apply (x1 : IVec S2x1600000 32) (k : Cert.ReferenceIdeal.S1700000.Idx) :
    Cert.ReferenceIdeal.Read.val_main_v37 (F := Ideal) x1 k = wrapW (Cert.ReferenceIdeal.Read.val_main_v3 (F := Ideal) x1 k) := by
  rw [Cert.ReferenceIdeal.Read.val_main_v37_apply, Cert.ReferenceIdeal.Read.val_main_v34_apply,
    Cert.ReferenceIdeal.Read.val_main_v36_apply, Cert.ReferenceIdeal.Read.val_main_v33_apply,
    Cert.ReferenceIdeal.Read.val_main_v35_apply, Cert.ReferenceIdeal.Read.val_main_c_6_apply,
    Cert.ReferenceIdeal.Read.val_main_c_7_apply]
  rfl

/-! ## The two row gathers and the two row scatters at an entry -/

/-- The row of the product a start index names: read signed, below zero as row 0, above the last row as the last. -/
def clampRow (w : BitVec 32) : Fin 100000 := ⟨min w.toInt.toNat (100000 - 1), by omega⟩

/-- The kernel program's row gather at (e, c). -/
theorem gathK_apply (xw : FVec Ideal S100000x128 .f32) (idx : IVec S1703936x1 32) (e : Fin 1703936) (c : Fin 128) :
    Host.gather gather_S100000x128_S1703936x1_S1703936x128_1_0_n_n_0_1_1128 xw idx (ix2 e c)
      = xw (ix2 (clampRow (idx (ix2 e (0 : Fin 1)))) c) :=
  gather_rows_apply (N := 100000) (C := 128) (R := 1703936) (by decide)
    gather_S100000x128_S1703936x1_S1703936x128_1_0_n_n_0_1_1128.wf xw idx (ix2 e c)

/-- The reference's row gather at (e, c). -/
theorem gathR_apply (xw : FVec Ideal S100000x128 .f32) (idx : IVec Cert.ReferenceIdeal.S1700000x1 32) (e : Fin 1700000) (c : Fin 128) :
    Host.gather Cert.ReferenceIdeal.gather_S100000x128_S1700000x1_S1700000x128_1_0_n_n_0_1_1128 xw idx (ix2 e c)
      = xw (ix2 (clampRow (idx (ix2 e (0 : Fin 1)))) c) :=
  gather_rows_apply (N := 100000) (C := 128) (R := 1700000) (by decide)
    Cert.ReferenceIdeal.gather_S100000x128_S1700000x1_S1700000x128_1_0_n_n_0_1_1128.wf xw idx (ix2 e c)

/-- Where update entry (e, c) of the kernel program's scatter lands. -/
theorem scatK_iff (idx : IVec S1703936x1 32) (e : Fin 1703936) (c : Fin 128) (i : S100000x128.Idx) :
    scatter_S100000x128_S1703936x1_S1703936x128_1_0_0_1.resultIdx? (ix2 e c) idx = some i
      ↔ (idx (ix2 e (0 : Fin 1))).toInt = ((i 0).val : Int) ∧ c.val = (i 1).val :=
  scatter_rows_resultIdx (N := 100000) (C := 128) (R := 1703936)
    scatter_S100000x128_S1703936x1_S1703936x128_1_0_0_1.wf idx (ix2 e c) i

/-- Where update entry (e, c) of the reference's scatter lands. -/
theorem scatR_iff (idx : IVec Cert.ReferenceIdeal.S1700000x1 32) (e : Fin 1700000) (c : Fin 128) (i : S100000x128.Idx) :
    Cert.ReferenceIdeal.scatter_S100000x128_S1700000x1_S1700000x128_1_0_0_1.resultIdx? (ix2 e c) idx = some i
      ↔ (idx (ix2 e (0 : Fin 1))).toInt = ((i 0).val : Int) ∧ c.val = (i 1).val :=
  scatter_rows_resultIdx (N := 100000) (C := 128) (R := 1700000)
    Cert.ReferenceIdeal.scatter_S100000x128_S1700000x1_S1700000x128_1_0_0_1.wf idx (ix2 e c) i

/-! ## The reference's layout index maps at an entry -/

theorem idx38_ix2 (e : Fin 1700000) (u : Fin 1) : Cert.ReferenceIdeal.Read.idx_main_v38 (ix2 e u) = ix1 e :=
  funext fun a => match a with | ⟨0, _⟩ => rfl
theorem idx40_ix2 (e : Fin 1700000) (u : Fin 1) : Cert.ReferenceIdeal.Read.idx_main_v40 (ix2 e u) = ix1 e :=
  funext fun a => match a with | ⟨0, _⟩ => rfl
theorem idx44_ix2 (e : Fin 1700000) (u : Fin 1) : Cert.ReferenceIdeal.Read.idx_main_v44 (ix2 e u) = ix1 e :=
  funext fun a => match a with | ⟨0, _⟩ => rfl
theorem idx41_ix2 (e : Fin 1700000) (c : Fin 128) : Cert.ReferenceIdeal.Read.idx_main_v41 (ix2 e c) = ix2 e (0 : Fin 1) :=
  funext fun a => match a with | ⟨0, _⟩ => rfl | ⟨1, _⟩ => rfl

/-! ## The messages -/

/-- An edge entry as an entry of the padded arrays. -/
def up (j : Cert.ReferenceIdeal.S1700000x128.Idx) : S1703936x128.Idx :=
  ix2 ⟨(j 0).val, by have := idx2_lt0 j; omega⟩ (j 1)

/-- On the edge entries the kernel program's messages are the reference's: the same row of the product (the padded and
    wrapped source index is the wrapped source index) times the same weight. -/
theorem msgs_up (x0 : FVec Ideal S100000x128 .f32) (x1 : IVec S2x1600000 32) (x2 : FVec Ideal S1600000 .f32)
    (x3 : FVec Ideal S128x128 .f32) (j : Cert.ReferenceIdeal.S1700000x128.Idx) :
    msgs (Cert.ReferenceIdeal.Read.val_main_v32 (F := Ideal) x0 x3) (Cert.ReferenceIdeal.Read.val_main_v3 (F := Ideal) x1)
        (Cert.ReferenceIdeal.Read.val_main_v31 (F := Ideal) x1 x2) (up j)
      = Cert.ReferenceIdeal.Read.val_main_v42 (F := Ideal) x0 x1 x2 x3 j := by
  obtain ⟨e, c, rfl⟩ : ∃ (e : Fin 1700000) (c : Fin 128), j = ix2 e c := ⟨j 0, j 1, eq_ix2 j⟩
  have he : (⟨e.val, by omega⟩ : Fin 1703936).val = e.val := rfl
  unfold msgs scaleRows gath
  show Host.gather gather_S100000x128_S1703936x1_S1703936x128_1_0_n_n_0_1_1128 _ _ (ix2 (⟨e.val, by omega⟩ : Fin 1703936) c)
      * colF _ (ix2 (⟨e.val, by omega⟩ : Fin 1703936) (0 : Fin 1)) = _
  rw [gathK_apply, colI_apply, wrapI_apply, padI_inside _ e _ he, colF_apply, padF_inside _ e _ he]
  rw [Cert.ReferenceIdeal.Read.val_main_v42_apply, Cert.ReferenceIdeal.Read.val_main_v41_apply,
    Cert.ReferenceIdeal.Read.val_main_v40_apply]
  unfold Cert.ReferenceIdeal.Read.val_main_v39
  rw [gathR_apply, Cert.ReferenceIdeal.Read.val_main_v38_apply, wrapR_apply, idx41_ix2, idx40_ix2, idx38_ix2]
  rfl

/-- On the added entries the kernel program's messages are zero: their weight is. -/
theorem msgs_pad (xw : FVec Ideal S100000x128 .f32) (row : IVec S1700000 32) (norm : FVec Ideal S1700000 .f32)
    (b : S1703936x128.Idx) (h : 1700000 ≤ (b 0).val) : msgs xw row norm b = 0 := by
  obtain ⟨e, c, rfl⟩ : ∃ (e : Fin 1703936) (c : Fin 128), b = ix2 e c := ⟨b 0, b 1, eq_ix2 b⟩
  unfold msgs scaleRows
  show gath xw row (ix2 e c) * colF (padF norm) (ix2 e (0 : Fin 1)) = 0
  rw [colF_apply, padF_outside norm e h, mul_zero]

/-- An edge entry lands, in the kernel program's scatter, where it lands in the reference's. -/
theorem landsK_up (x1 : IVec S2x1600000 32) (j : Cert.ReferenceIdeal.S1700000x128.Idx) (i : S100000x128.Idx) :
    scatter_S100000x128_S1703936x1_S1703936x128_1_0_0_1.resultIdx? (up j)
        (colI (padI (Cert.ReferenceIdeal.Read.val_main_v6 (F := Ideal) x1))) = some i
      ↔ Cert.ReferenceIdeal.scatter_S100000x128_S1700000x1_S1700000x128_1_0_0_1.resultIdx? j
        (Cert.ReferenceIdeal.Read.val_main_v44 (F := Ideal) x1) = some i := by
  obtain ⟨e, c, rfl⟩ : ∃ (e : Fin 1700000) (c : Fin 128), j = ix2 e c := ⟨j 0, j 1, eq_ix2 j⟩
  have he : (⟨e.val, by omega⟩ : Fin 1703936).val = e.val := rfl
  show scatter_S100000x128_S1703936x1_S1703936x128_1_0_0_1.resultIdx? (ix2 (⟨e.val, by omega⟩ : Fin 1703936) c) _ = some i ↔ _
  rw [scatK_iff, scatR_iff, colI_apply, padI_inside _ e _ he, Cert.ReferenceIdeal.Read.val_main_v44_apply, idx44_ix2]

/-! ## The scatter-adds, the bias and the cut-off -/

theorem up_injective : Function.Injective up := fun a b hab => by
  have h0 : (a 0).val = (b 0).val := congrArg (fun f : S1703936x128.Idx => (f 0).val) hab
  have h1 : (a 1).val = (b 1).val := congrArg (fun f : S1703936x128.Idx => (f 1).val) hab
  exact Shape.idx_ext₂ h0 h1

/-- A scatter-add over the extended reals at an entry: the operand there plus the sum of the updates that land there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- Both scatter-adds start from the same zero array. -/
theorem zeros_eq (i : S100000x128.Idx) :
    broadcastInDim S100000x128 ![] bcast_S_S100000x128 (constant (F := Ideal) S_ .f32 0x00000000#32) i
      = Cert.ReferenceIdeal.Read.val_main_v43 (F := Ideal) i := rfl

/-- The messages that land on a node entry add up to the same sum in both programs: the entries correspond, the added
    ones carry zero messages, and corresponding entries carry equal messages. -/
theorem sums_eq (x0 : FVec Ideal S100000x128 .f32) (x1 : IVec S2x1600000 32) (x2 : FVec Ideal S1600000 .f32)
    (x3 : FVec Ideal S128x128 .f32) (i : S100000x128.Idx) :
    ∑ j ∈ Finset.univ.filter (fun j : S1703936x128.Idx =>
        scatter_S100000x128_S1703936x1_S1703936x128_1_0_0_1.resultIdx? j
          (colI (padI (Cert.ReferenceIdeal.Read.val_main_v6 (F := Ideal) x1))) = some i),
        msgs (Cert.ReferenceIdeal.Read.val_main_v32 (F := Ideal) x0 x3) (Cert.ReferenceIdeal.Read.val_main_v3 (F := Ideal) x1)
          (Cert.ReferenceIdeal.Read.val_main_v31 (F := Ideal) x1 x2) j
      = ∑ j ∈ Finset.univ.filter (fun j : Cert.ReferenceIdeal.S1700000x128.Idx =>
        Cert.ReferenceIdeal.scatter_S100000x128_S1700000x1_S1700000x128_1_0_0_1.resultIdx? j
          (Cert.ReferenceIdeal.Read.val_main_v44 (F := Ideal) x1) = some i),
        Cert.ReferenceIdeal.Read.val_main_v42 (F := Ideal) x0 x1 x2 x3 j := by
  symm
  refine Finset.sum_bij_ne_zero (fun j _ _ => up j) ?_ ?_ ?_ ?_
  · intro j hj _
    rw [Finset.mem_filter] at hj ⊢
    exact ⟨Finset.mem_univ _, (landsK_up x1 j i).mpr hj.2⟩
  · intro a _ _ b _ _ hab
    exact up_injective hab
  · intro b hb hne
    rw [Finset.mem_filter] at hb
    have hlt : (b 0).val < 1700000 := by
      by_contra h
      exact hne (msgs_pad _ _ _ b (by omega))
    have hup : up (ix2 (⟨(b 0).val, hlt⟩ : Fin 1700000) (b 1)) = b := Shape.idx_ext₂ rfl rfl
    refine ⟨ix2 (⟨(b 0).val, hlt⟩ : Fin 1700000) (b 1), ?_, ?_, hup⟩
    · rw [Finset.mem_filter]
      refine ⟨Finset.mem_univ _, (landsK_up x1 _ i).mp ?_⟩
      rw [hup]; exact hb.2
    · rw [← msgs_up, hup]; exact hne
  · intro j _ _
    exact (msgs_up x0 x1 x2 x3 j).symm

/-- The kernel program's scatter-add is the reference's, entry by entry. -/
theorem scat_eq (x0 : FVec Ideal S100000x128 .f32) (x1 : IVec S2x1600000 32) (x2 : FVec Ideal S1600000 .f32)
    (x3 : FVec Ideal S128x128 .f32) (i : S100000x128.Idx) :
    scat (Cert.ReferenceIdeal.Read.val_main_v6 (F := Ideal) x1)
        (msgs (Cert.ReferenceIdeal.Read.val_main_v32 (F := Ideal) x0 x3) (Cert.ReferenceIdeal.Read.val_main_v3 (F := Ideal) x1)
          (Cert.ReferenceIdeal.Read.val_main_v31 (F := Ideal) x1 x2)) i
      = Cert.ReferenceIdeal.Read.val_main_v45 (F := Ideal) x0 x1 x2 x3 i := by
  unfold scat Cert.ReferenceIdeal.Read.val_main_v45
  rw [scatterAdd_apply, scatterAdd_apply, zeros_eq, sums_eq]

/-- The bias as a one-row matrix at (0, q) is the bias at q. -/
theorem biasRow_apply (b : FVec Ideal S128 .f32) (u : Fin 1) (q : Fin 128) : biasRow b (ix2 u q) = b (ix1 q) := by
  unfold biasRow
  refine shapeCast_apply b shapeCasts_S128_S1x128 (ix2 u q) (ix1 q) ?_
  rw [Shape.rowMajor_val_two, Shape.rowMajor_val_one]
  show q.val = u.val * 128 + q.val
  have hu : u.val = 0 := by omega
  rw [hu]; omega

theorem kout_eq_ref (x0 : FVec Ideal S100000x128 .f32) (x1 : IVec S2x1600000 32) (x2 : FVec Ideal S1600000 .f32)
    (x3 : FVec Ideal S128x128 .f32) (x4 : FVec Ideal S128 .f32) :
    kout x0 x1 x2 x3 x4 = Cert.ReferenceIdeal.Read.val_main_v49 (F := Ideal) x0 x1 x2 x3 x4 := by
  funext i
  have hb : Cert.ReferenceIdeal.Read.idx_main_v46 (Cert.ReferenceIdeal.Read.idx_main_v47 i) = ix1 (i 1) :=
    funext fun a => match a with | ⟨0, _⟩ => rfl
  rw [Cert.ReferenceIdeal.Read.val_main_v49_apply, Cert.ReferenceIdeal.Read.val_main_v48_apply,
    Cert.ReferenceIdeal.Read.val_main_call1_v0_apply, Cert.ReferenceIdeal.Read.val_main_call1_cst_apply,
    Cert.ReferenceIdeal.Read.val_main_v47_apply, Cert.ReferenceIdeal.Read.val_main_v46_apply, hb, ← scat_eq]
  unfold kout biasRelu
  have hbias : biasRow x4 (ix2 (0 : Fin 1) (i 1)) = x4 (ix1 (i 1)) := biasRow_apply x4 0 (i 1)
  show max (_ + biasRow x4 (ix2 (0 : Fin 1) (i 1))) _ = _
  rw [hbias]
  rfl

end Cert.KernelIdeal.KV

end
-- ==== Proof.lean ====
/-
  The certificate of a graph convolution with self loops and symmetric normalisation followed by a rectifier:
      out = relu( scatter_add over target nodes of ( (x W)[source] * norm ) + b ).
  The kernel program computes x W block by block in a first pipelined region (25 blocks of 4,000 rows, the operands
  changed to a 16-bit format, which over the extended reals changes nothing), gathers the rows and scales them in a
  second region over the 1,700,000 edge entries padded with zeros to 208 blocks of 8,192, adds them up per target node
  on the host, and adds the bias and cuts off at zero in a third region; the reference does the same with whole-array
  operations and no padding. The normalisation weights are computed by the same host operations in both programs.

  The three frames: the two programs with kernels by their generated frames, the reference by its generated run with the
  result dropped. No operation was rewritten by the idealisation, so that claim is trivial. The value claim: the run of
  the kernel program with its result array named (the regions' launch called once more with the result in the post),
  the three regions' output arrays each as one function of the arrays the region was entered with, the host operations
  between them read back, and the equality of the two whole-array functions (the zero-weight padding adds nothing to
  any sum).
-/
import proofs.«171862_j82970178224660_1_alg».proof.Defs
import proofs.«171862_j82970178224660_1_alg».proof.Proof.Gen.Kernel
import proofs.«171862_j82970178224660_1_alg».proof.Proof.Gen.Kernel.Skeleton
import proofs.«171862_j82970178224660_1_alg».proof.Proof.Gen.Kernel.Launch
import proofs.«171862_j82970178224660_1_alg».proof.Proof.Gen.Kernel.Points
import proofs.«171862_j82970178224660_1_alg».proof.Proof.Gen.Kernel.Frame
import proofs.«171862_j82970178224660_1_alg».proof.Proof.Gen.KernelIdeal
import proofs.«171862_j82970178224660_1_alg».proof.Proof.Gen.KernelIdeal.Skeleton
import proofs.«171862_j82970178224660_1_alg».proof.Proof.Gen.KernelIdeal.Launch
import proofs.«171862_j82970178224660_1_alg».proof.Proof.Gen.KernelIdeal.Points
import proofs.«171862_j82970178224660_1_alg».proof.Proof.Gen.KernelIdeal.Frame
import proofs.«171862_j82970178224660_1_alg».proof.Proof.Gen.ReferenceIdeal
import proofs.«171862_j82970178224660_1_alg».proof.Proof.Gen.ReferenceIdeal.Run
import proofs.«171862_j82970178224660_1_alg».proof.Proof.Gen.ReferenceIdeal.Read
import proofs.«171862_j82970178224660_1_alg».proof.Proof.Gen.Pre_finite_inputs
import proofs.«171862_j82970178224660_1_alg».proof.Proof.Spec
import proofs.«171862_j82970178224660_1_alg».proof.Proof.KRun
import proofs.«171862_j82970178224660_1_alg».proof.Proof.Region0
import proofs.«171862_j82970178224660_1_alg».proof.Proof.Region1
import proofs.«171862_j82970178224660_1_alg».proof.Proof.Region2
import proofs.«171862_j82970178224660_1_alg».proof.Proof.HostA
import proofs.«171862_j82970178224660_1_alg».proof.Proof.HostB
import proofs.«171862_j82970178224660_1_alg».proof.Proof.Math
import Idealize.ShloMosaic.Adequacy
import Idealize.ShloMosaic.Init

set_option maxRecDepth 16384

noncomputable section

namespace Cert.Proof

open Idealize.ShloMosaic Idealize.ShloMosaic.TcCoe Idealize.SL.Sem

/-- The kernel program's result array at the end of its run, as one function of the five arguments: region 2 applied
    to the scatter-add of region 1's messages and the bias row, region 1 to the gather out of region 0's product and
    the padded weights, region 0 to x and W. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W14 m ρ c (Proc.devRef .tc Cert.KernelIdeal.main_v51)
      = Cert.KernelIdeal.KV.kout (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  rw [Cert.KernelIdeal.KV.W14_out, Cert.KernelIdeal.KV.region2_out, Cert.KernelIdeal.KV.V13_scat,
    Cert.KernelIdeal.KV.V13_bias, Cert.KernelIdeal.KV.region1_out, Cert.KernelIdeal.KV.V11_gath,
    Cert.KernelIdeal.KV.V11_norm, Cert.KernelIdeal.KV.region0_out, Cert.KernelIdeal.KV.V3_x, Cert.KernelIdeal.KV.V3_w]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: the kernel program's named run and its value, the reference's generated run
    and its last stage, and the equality of the two functions at arguments that agree. -/
theorem algebraic : Cert.algebraic_KernelIdeal_ReferenceIdeal := by
  intro m ρ m' ρ' _ hagree
  refine ⟨fun c => Cert.KernelIdeal.KV.kout (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_value m ρ c), (h c).2⟩)
      (Cert.KernelIdeal.KV.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, (hagree c).1, (hagree c).2.1, (hagree c).2.2.1, (hagree c).2.2.2.1,
      (hagree c).2.2.2.2]
    exact (Cert.KernelIdeal.KV.kout_eq_ref _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
